-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x256 : Shape := ⟨3, ![4, 20000, 256]⟩
abbrev S160000 : Shape := ⟨1, ![160000]⟩
abbrev S256x256 : Shape := ⟨2, ![256, 256]⟩
abbrev S256 : Shape := ⟨1, ![256]⟩
abbrev S_ : Shape := ⟨0, ![]⟩

class Facts : Prop where
  bcast_S_S4x20000x256 : S_.BroadcastsInDim S4x20000x256 (![] : Fin 0 → Fin S4x20000x256.rank)
  reducesTo_S4x20000x256_S_d0_1_2 : S4x20000x256.ReducesTo [0, 1, 2] S_
  h_S_ : 0 < S_.numel
  bcast_S_S160000 : S_.BroadcastsInDim S160000 (![] : Fin 0 → Fin S160000.rank)
  reducesTo_S160000_S_d0 : S160000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x20000x256 .f32) (main_arg1 : IVec S160000 32) (main_arg2 : IVec S160000 32) (main_arg3 : FVec F S160000 .f32) (main_arg4 : FVec F S256x256 .f32) (main_arg5 : FVec F S256x256 .f32) (main_arg6 : FVec F S256 .f32) : IVec S_ 1 :=
  let main_v0 : FVec F S4x20000x256 .f32 := Host.absf main_arg0
  let main_cst : FVec F S_ .f32 := constant S_ .f32 0x7F800000#32
  let main_v1 : FVec F S4x20000x256 .f32 := broadcastInDim S4x20000x256 ![] bcast_S_S4x20000x256 main_cst
  let main_v2 : IVec S4x20000x256 1 := cmpf .olt main_v0 main_v1
  let main_c : IVec S_ 1 := constantI S_ 1 1#1
  let main_v3 : IVec S_ 1 := (fun x v => Host.reduce IntOp.andi x v reducesTo_S4x20000x256_S_d0_1_2 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S4x20000x256 : Shape := ⟨3, ![4, 20000, 256]⟩
abbrev S160000 : Shape := ⟨1, ![160000]⟩
abbrev S256x256 : Shape := ⟨2, ![256, 256]⟩
abbrev S256 : Shape := ⟨1, ![256]⟩
abbrev S80000x256 : Shape := ⟨2, ![80000, 256]⟩
abbrev S5000x256 : Shape := ⟨2, ![5000, 256]⟩
abbrev S1x256 : Shape := ⟨2, ![1, 256]⟩
abbrev S_ : Shape := ⟨0, ![]⟩
abbrev S160000x1 : Shape := ⟨2, ![160000, 1]⟩
abbrev S4x160000x256 : Shape := ⟨3, ![4, 160000, 256]⟩
abbrev S1x160000x1 : Shape := ⟨3, ![1, 160000, 1]⟩
abbrev S20000x256 : Shape := ⟨2, ![20000, 256]⟩

abbrev nBuf : Space → Nat
  | .hbm => 33
  | .vmem => 15
  | .smem => 0
  | _ => 0

abbrev bufTy : (tb : Table) → Fin (tcTables nBuf tb) → BufTy
  | .hbm, ⟨0, _⟩ => ⟨S4x20000x256, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S80000x256, .f32⟩
  | .hbm, ⟨8, _⟩ => ⟨S256x256, .bf16⟩
  | .hbm, ⟨9, _⟩ => ⟨S256x256, .bf16⟩
  | .hbm, ⟨10, _⟩ => ⟨S80000x256, .f32⟩
  | .hbm, ⟨11, _⟩ => ⟨S80000x256, .f32⟩
  | .hbm, ⟨12, _⟩ => ⟨S4x20000x256, .f32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S4x160000x256, .f32⟩
  | .hbm, ⟨22, _⟩ => ⟨S1x160000x1, .f32⟩
  | .hbm, ⟨23, _⟩ => ⟨S4x160000x256, .f32⟩
  | .hbm, ⟨24, _⟩ => ⟨S4x160000x256, .f32⟩
  | .hbm, ⟨25, _⟩ => ⟨S_, .f32⟩
  | .hbm, ⟨26, _⟩ => ⟨S20000x256, .f32⟩
  | .hbm, ⟨27, _⟩ => ⟨S160000x1, .i32⟩
  | .hbm, ⟨28, _⟩ => ⟨S4x20000x256, .f32⟩
  | .hbm, ⟨29, _⟩ => ⟨S4x20000x256, .f32⟩
  | .hbm, ⟨30, _⟩ => ⟨S80000x256, .f32⟩
  | .hbm, ⟨31, _⟩ => ⟨S80000x256, .f32⟩
  | .hbm, ⟨32, _⟩ => ⟨S4x20000x256, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S256x256, .bf16⟩
  | .local _ .vmem, ⟨4, _⟩ => ⟨S256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S5000x256, .f32⟩
  | _, _ => ⟨S4x20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x20000x256_S80000x256 : S4x20000x256.ShapeCasts S80000x256
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  shapeCasts_S80000x256_S4x20000x256 : S80000x256.ShapeCasts S4x20000x256
  bcast_S_S160000 : S_.BroadcastsInDim S160000 (![] : Fin 0 → Fin S160000.rank)
  bcast_S160000_S160000x1_0 : S160000.BroadcastsInDim S160000x1 (![0] : Fin 1 → Fin S160000x1.rank)
  bcast_S160000_S1x160000x1_1 : S160000.BroadcastsInDim S1x160000x1 (![1] : Fin 1 → Fin S1x160000x1.rank)
  bcast_S1x160000x1_S4x160000x256_0_1_2 : S1x160000x1.BroadcastsInDim S4x160000x256 (![0, 1, 2] : Fin 3 → Fin S4x160000x256.rank)
  bcast_S_S20000x256 : S_.BroadcastsInDim S20000x256 (![] : Fin 0 → Fin S20000x256.rank)
  bcast_S20000x256_S4x20000x256_1_2 : S20000x256.BroadcastsInDim S4x20000x256 (![1, 2] : Fin 2 → Fin S4x20000x256.rank)
  dot_S5000x256_S256x256_S5000x256_1_0_0_1_n_n_wf : DotDims.WF S5000x256 S256x256 S5000x256 [1] [0] [0] [1] [] []
  gather_S4x20000x256_S160000x1_S4x160000x256_02_1_n_n_1_1_41256_wf : GatherDims.WF S4x20000x256 S160000x1 S4x160000x256 [0, 2] [1] [] [1] [] 1 ![4, 1, 256]
  scatter_S4x20000x256_S160000x1_S4x160000x256_02_1_1_1_wf : ScatterDims.WF S4x20000x256 S160000x1 S4x160000x256 [0, 2] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S80000x256.size a
  hwx0_0 : ∀ i : grid0.Coords, EltTy.bits .f32 = 32 ∨ (Rect.block (s := S80000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S80000x256.size a
  hwx0_4 : ∀ i : grid0.Coords, EltTy.bits .f32 = 32 ∨ (Rect.block (s := S80000x256) S5000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S80000x256.size a
  hwx0_5 : ∀ i : grid0.Coords, EltTy.bits .f32 = 32 ∨ (Rect.block (s := S80000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S80000x256.size a
  hwx1_0 : ∀ i : grid1.Coords, EltTy.bits .f32 = 32 ∨ (Rect.block (s := S80000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S80000x256.size a
  hwx1_1 : ∀ i : grid1.Coords, EltTy.bits .f32 = 32 ∨ (Rect.block (s := S80000x256) S5000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S80000x256.size a
  hwx1_2 : ∀ i : grid1.Coords, EltTy.bits .f32 = 32 ∨ (Rect.block (s := S80000x256) S5000x256.size (cc1_transform_2 i) (hinb1_2 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S4x20000x256_S160000x1_S4x160000x256_02_1_n_n_1_1_41256 : GatherDims S4x20000x256 S160000x1 S4x160000x256 where
  offsetDims := [0, 2]
  collapsedSliceDims := [1]
  operandBatchingDims := []
  startIndicesBatchingDims := []
  startIndexMap := [1]
  indexVectorDim := 1
  sliceSizes := ![4, 1, 256]
  wf := gather_S4x20000x256_S160000x1_S4x160000x256_02_1_n_n_1_1_41256_wf
def scatter_S4x20000x256_S160000x1_S4x160000x256_02_1_1_1 : ScatterDims S4x20000x256 S160000x1 S4x160000x256 where
  updateWindowDims := [0, 2]
  insertedWindowDims := [1]
  scatterDimsToOperandDims := [1]
  indexVectorDim := 1
  wf := scatter_S4x20000x256_S160000x1_S4x160000x256_02_1_1_1_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S5000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x20000x256 : Shape := ⟨3, ![4, 20000, 256]⟩
abbrev S160000 : Shape := ⟨1, ![160000]⟩
abbrev S256x256 : Shape := ⟨2, ![256, 256]⟩
abbrev S256 : Shape := ⟨1, ![256]⟩
abbrev S_ : Shape := ⟨0, ![]⟩
abbrev S160000x1 : Shape := ⟨2, ![160000, 1]⟩
abbrev S4x160000x256 : Shape := ⟨3, ![4, 160000, 256]⟩
abbrev S1x160000x1 : Shape := ⟨3, ![1, 160000, 1]⟩
abbrev S20000x256 : Shape := ⟨2, ![20000, 256]⟩
abbrev S1x1x256 : Shape := ⟨3, ![1, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S4x20000x256, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S4x20000x256, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S4x160000x256, .f32⟩
  | .hbm, ⟨17, _⟩ => ⟨S1x160000x1, .f32⟩
  | .hbm, ⟨18, _⟩ => ⟨S4x160000x256, .f32⟩
  | .hbm, ⟨19, _⟩ => ⟨S4x160000x256, .f32⟩
  | .hbm, ⟨20, _⟩ => ⟨S_, .f32⟩
  | .hbm, ⟨21, _⟩ => ⟨S20000x256, .f32⟩
  | .hbm, ⟨22, _⟩ => ⟨S160000x1, .i32⟩
  | .hbm, ⟨23, _⟩ => ⟨S4x20000x256, .f32⟩
  | .hbm, ⟨24, _⟩ => ⟨S4x20000x256, .f32⟩
  | .hbm, ⟨25, _⟩ => ⟨S4x20000x256, .f32⟩
  | .hbm, ⟨26, _⟩ => ⟨S4x20000x256, .f32⟩
  | .hbm, ⟨27, _⟩ => ⟨S1x1x256, .f32⟩
  | .hbm, ⟨28, _⟩ => ⟨S4x20000x256, .f32⟩
  | .hbm, ⟨29, _⟩ => ⟨S4x20000x256, .f32⟩
  | _, _ => ⟨S4x20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000_S1x160000x1_1 : S160000.BroadcastsInDim S1x160000x1 (![1] : Fin 1 → Fin S1x160000x1.rank)
  bcast_S1x160000x1_S4x160000x256_0_1_2 : S1x160000x1.BroadcastsInDim S4x160000x256 (![0, 1, 2] : Fin 3 → Fin S4x160000x256.rank)
  bcast_S_S20000x256 : S_.BroadcastsInDim S20000x256 (![] : Fin 0 → Fin S20000x256.rank)
  bcast_S20000x256_S4x20000x256_1_2 : S20000x256.BroadcastsInDim S4x20000x256 (![1, 2] : Fin 2 → Fin S4x20000x256.rank)
  bcast_S256_S1x1x256_2 : S256.BroadcastsInDim S1x1x256 (![2] : Fin 1 → Fin S1x1x256.rank)
  bcast_S1x1x256_S4x20000x256_0_1_2 : S1x1x256.BroadcastsInDim S4x20000x256 (![0, 1, 2] : Fin 3 → Fin S4x20000x256.rank)
  dot_S4x20000x256_S256x256_S4x20000x256_2_0_01_1_n_n_wf : DotDims.WF S4x20000x256 S256x256 S4x20000x256 [2] [0] [0, 1] [1] [] []
  gather_S4x20000x256_S160000x1_S4x160000x256_02_1_n_n_1_1_41256_wf : GatherDims.WF S4x20000x256 S160000x1 S4x160000x256 [0, 2] [1] [] [1] [] 1 ![4, 1, 256]
  scatter_S4x20000x256_S160000x1_S4x160000x256_02_1_1_1_wf : ScatterDims.WF S4x20000x256 S160000x1 S4x160000x256 [0, 2] [1] [1] 1

variable [Facts₀]

def dot_S4x20000x256_S256x256_S4x20000x256_2_0_01_1_n_n : DotDims S4x20000x256 S256x256 S4x20000x256 where
  lhsContracting := [2]
  rhsContracting := [0]
  lhsNonContracting := [0, 1]
  rhsNonContracting := [1]
  lhsBatch := []
  rhsBatch := []
  wf := dot_S4x20000x256_S256x256_S4x20000x256_2_0_01_1_n_n_wf
def gather_S4x20000x256_S160000x1_S4x160000x256_02_1_n_n_1_1_41256 : GatherDims S4x20000x256 S160000x1 S4x160000x256 where
  offsetDims := [0, 2]
  collapsedSliceDims := [1]
  operandBatchingDims := []
  startIndicesBatchingDims := []
  startIndexMap := [1]
  indexVectorDim := 1
  sliceSizes := ![4, 1, 256]
  wf := gather_S4x20000x256_S160000x1_S4x160000x256_02_1_n_n_1_1_41256_wf
def scatter_S4x20000x256_S160000x1_S4x160000x256_02_1_1_1 : ScatterDims S4x20000x256 S160000x1 S4x160000x256 where
  updateWindowDims := [0, 2]
  insertedWindowDims := [1]
  scatterDimsToOperandDims := [1]
  indexVectorDim := 1
  wf := scatter_S4x20000x256_S160000x1_S4x160000x256_02_1_1_1_wf

class Facts : Prop extends Facts₀ where

variable [Facts]
-- ==== Proof.LibRowOps.lean ====
/-
  Row-wise readings of the operations a row-parallel kernel body is made of, at an index written with the
  coordinate constructors: a plain `M × K` by `K × N` matrix product into a zero accumulator read at `(p, q)` is the
  sum over `k` of the left operand's row `p` times the right operand's column `q`; a sum (a maximum) along the
  second axis of an `[a, b]` array read at row `p` is the sum (the fold of `max`) of that row's entries.
-/
import Idealize.ShloMosaic.Lib.ValueIdx
import Idealize.ShloMosaic.PureOps.Ideal.Laws

namespace Cert.LibRowOps

open Idealize.ShloMosaic Idealize.ShloMosaic.ValueIdx

/-! ## A plain matrix product -/

section Plain
variable (M K N : ℕ)

theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_contr (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_contr (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The product of an `[M, K]` by a `[K, N]` array accumulated into zero, at `(p, q)`: the sum over the contracted
    coordinate of row `p` of the left factor times column `q` of the right one. -/
theorem matmul_plain_zero_apply {φ₁ φ₂ : FTy} (l : FVec Ideal ⟨2, ![M, K]⟩ φ₁) (r : FVec Ideal ⟨2, ![K, N]⟩ φ₂)
    (p : Fin M) (q : Fin N) :
    FloatOps.matmul (DotDims.plain M K N) none l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row M K N _ _
      | ⟨1, _⟩ => exact (plain_lhs_contr M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_contr M K N _ _).trans hk
      | ⟨1, _⟩ => exact plain_rhs_col M K N _ _)
  rw [el, er]

end Plain

/-! ## Reductions along the rows of a matrix -/

section Rows
variable {a b : ℕ} {φ : FTy}

/-- Over row `p` of the reduced vector, the source index with coordinate `k` put back on the dropped axis is `(p, k)`. -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A sum along the second axis, at row `p`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- A maximum along the second axis, at row `p`: the fold of `max`, from the accumulator's value, over the row's entries. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (Finset.fold max (Ideal.ofBits φ acc) · Finset.univ) (funext fun k => congrArg src (lift_row h p k)))

end Rows

end Cert.LibRowOps
-- ==== Proof.ProjValue.lean ====
/-
  The first kernel region, read as values over the extended reals. Its grid has 16 points; point `t` stages rows
  `5000 t … 5000 t + 4999` of the `80000 × 256` input `x` and the two whole `256 × 256` weight arrays, and writes
  back rows `5000 t …` of two outputs: the product of the staged rows with the second weight array, and their product
  with the first weight array plus the bias row. A change of float format is the identity on the extended reals, and a
  matrix product into a zero accumulator is the plain sum over the contracted coordinate, so row `r`, column `o` of
  the first output is `∑ k, x r k · w₂ k o` and of the second `∑ k, x r k · w₁ k o + bias o`: each block written back is
  the restriction of ONE function of the whole arrays, and the sixteen blocks tile the `80000` rows (row `r` lies in
  block `r / 5000`), so the arrays end at those functions.
-/
import proofs.«110017_j86466281603623_1_alg».proof.Proof.Gen.KernelIdeal.Frame
import proofs.«110017_j86466281603623_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

/-! ## The two whole-array functions -/

/-- Rows of `x` times the columns of `w`: entry `(r, o)` is `∑ k, x r k · w k o`. -/
def rowsTimes (x : FVec Ideal S80000x256 .f32) (w : FVec Ideal S256x256 .bf16) : FVec Ideal S80000x256 .f32 :=
  fun i => ∑ k : Fin 256, x (ix2 (i 0) k) * w (ix2 k (i 1))

/-- The same product with the bias row added to every row: entry `(r, o)` is `∑ k, x r k · w k o + b o`. -/
def rowsTimesPlus (x : FVec Ideal S80000x256 .f32) (w : FVec Ideal S256x256 .bf16) (b : FVec Ideal S256 .f32) :
    FVec Ideal S80000x256 .f32 :=
  fun i => (∑ k : Fin 256, x (ix2 (i 0) k) * w (ix2 k (i 1))) + b (ix1 (i 1))

/-! ## The body's two stored values at an entry of the block -/

theorem hz2 : (![0, 0] : Fin 2 → Nat) = fun _ => 0 := funext fun a => by fin_cases a <;> rfl
theorem hz1 : (![0] : Fin 1 → Nat) = fun _ => 0 := funext fun a => by fin_cases a <;> rfl

/-- The printed contraction pattern is the plain `[5000, 256] × [256, 256]` one. -/
theorem dot_eq_plain : dot_S5000x256_S256x256_S5000x256_1_0_0_1_n_n = DotDims.plain 5000 256 256 := rfl

/-- The first stored value at `(p, q)`: row `p` of the staged rows against column `q` of the staged weights. -/
theorem pay2_apply (x0 : Vec Ideal S5000x256 .f32) (w : Vec Ideal S256x256 .bf16) (p : Fin 5000) (q : Fin 256) :
    k0_pay2 (F := Ideal) x0 w (ix2 p q) = ∑ k : Fin 256, x0 (ix2 p k) * w (ix2 k q) := by
  unfold k0_pay2 k0_pay1
  simp only [shapeCast_self]
  exact Cert.LibRowOps.matmul_plain_zero_apply 5000 256 256 (truncf (F := Ideal) .bf16 x0 bitsLt_bf16_f32) w p q

/-- The second stored value at `(p, q)`: the same sum against the other weights, plus the bias at `q`. -/
theorem pay3_apply (x0 : Vec Ideal S5000x256 .f32) (w : Vec Ideal S256x256 .bf16) (b : Vec Ideal S256 .f32)
    (p : Fin 5000) (q : Fin 256) :
    k0_pay3 (F := Ideal) x0 w b (ix2 p q) = (∑ k : Fin 256, x0 (ix2 p k) * w (ix2 k q)) + b (ix1 q) := by
  unfold k0_pay3 k0_pay1
  simp only [shapeCast_self]
  rw [addf_apply]
  refine congrArg₂ (· + ·) ?_ ?_
  · exact Cert.LibRowOps.matmul_plain_zero_apply 5000 256 256 (truncf (F := Ideal) .bf16 x0 bitsLt_bf16_f32) w p q
  · exact (broadcastTo_1b_ab_apply _ broadcasts_S1x256_S5000x256 p q).trans
      (shapeCast_a_1a_apply b shapeCasts_S256_S1x256 (0 : Fin 1) q)

section Region
variable (V : (c : Dev nD) → (b : Ref sig .tc) → Buf (Elt Ideal) ((c : Thread nD τ).loc b))

/-! ## The windows' blocks as rows of the arrays -/

/-- The printed index maps over the grid: the row windows (the input `x` and both outputs) sit at block row `t`, the
    weight and bias windows at block `0`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem tlt (t : Fin cfg0.N) : t.val < 16 := lt_of_lt_of_eq t.isLt N_0

/-- Row `p` of the block of `x` staged at point `t` is row `5000 t + p` of the array. -/
theorem xblk_apply (c : Dev nD) (t : Fin cfg0.N) (p : Fin 5000) (k : Fin 256) (r : Fin 80000) (hr : r.val = 5000 * t.val + p.val) :
    (iblk0 V c 0 t : Vec Ideal S5000x256 .f32) (ix2 p k) = (V c main_v0 : S80000x256.Idx → EReal) (ix2 r k) := by
  obtain ⟨e00, e01, -⟩ := idx_facts t
  unfold iblk0
  rw [View.read_apply]
  show V c main_v0 _ = V c main_v0 _
  congr 1
  funext a
  apply Fin.ext
  match a with
  | ⟨0, _⟩ => show win0_0.index t 0 * 5000 + 1 * p.val = r.val; rw [e00, hr]; omega
  | ⟨1, _⟩ => show win0_0.index t 1 * 256 + 1 * k.val = k.val; rw [e01]; omega

/-- The staged second weight array is the whole array. -/
theorem w2blk_apply (c : Dev nD) (t : Fin cfg0.N) (k q : Fin 256) :
    (iblk0 V c 2 t : Vec Ideal S256x256 .bf16) (ix2 k q) = (V c main_v2 : S256x256.Idx → EReal) (ix2 k q) := by
  obtain ⟨-, -, -, -, e20, e21, -⟩ := idx_facts t
  unfold iblk0
  rw [View.read_apply]
  show V c main_v2 _ = V c main_v2 _
  congr 1
  funext a
  apply Fin.ext
  match a with
  | ⟨0, _⟩ => show win0_2.index t 0 * 256 + 1 * k.val = k.val; rw [e20]; omega
  | ⟨1, _⟩ => show win0_2.index t 1 * 256 + 1 * q.val = q.val; rw [e21]; omega

/-- The staged first weight array is the whole array. -/
theorem w1blk_apply (c : Dev nD) (t : Fin cfg0.N) (k q : Fin 256) :
    (iblk0 V c 1 t : Vec Ideal S256x256 .bf16) (ix2 k q) = (V c main_v1 : S256x256.Idx → EReal) (ix2 k q) := by
  obtain ⟨-, -, e10, e11, -⟩ := idx_facts t
  unfold iblk0
  rw [View.read_apply]
  show V c main_v1 _ = V c main_v1 _
  congr 1
  funext a
  apply Fin.ext
  match a with
  | ⟨0, _⟩ => show win0_1.index t 0 * 256 + 1 * k.val = k.val; rw [e10]; omega
  | ⟨1, _⟩ => show win0_1.index t 1 * 256 + 1 * q.val = q.val; rw [e11]; omega

/-- The staged bias row is the whole row. -/
theorem bblk_apply (c : Dev nD) (t : Fin cfg0.N) (q : Fin 256) :
    (iblk0 V c 3 t : Vec Ideal S256 .f32) (ix1 q) = (V c main_arg6 : S256.Idx → EReal) (ix1 q) := by
  obtain ⟨-, -, -, -, -, -, e30, -⟩ := idx_facts t
  unfold iblk0
  rw [View.read_apply]
  show V c main_arg6 _ = V c main_arg6 _
  congr 1
  funext a
  apply Fin.ext
  match a with
  | ⟨0, _⟩ => show win0_3.index t 0 * 256 + 1 * q.val = q.val; rw [e30]; omega

/-! ## What a point writes back, and the arrays after the sixteen points -/

/-- The entry `(p, q)` of a row block at block row `t` is entry `(5000 t + p, q)` of the array. -/
theorem out4_emb (t : Fin cfg0.N) (p : Fin 5000) (q : Fin 256) (r : Fin 80000) (hr : r.val = 5000 * t.val + p.val) :
    ((cfg0.win 4).blk t).view.emb (ix2 p q) = (ix2 r q : S80000x256.Idx) := by
  obtain ⟨-, -, -, -, -, -, -, e40, e41, -⟩ := idx_facts t
  funext a
  apply Fin.ext
  match a with
  | ⟨0, _⟩ => show win0_4.index t 0 * 5000 + 1 * p.val = r.val; rw [e40, hr]; omega
  | ⟨1, _⟩ => show win0_4.index t 1 * 256 + 1 * q.val = q.val; rw [e41]; omega

theorem out5_emb (t : Fin cfg0.N) (p : Fin 5000) (q : Fin 256) (r : Fin 80000) (hr : r.val = 5000 * t.val + p.val) :
    ((cfg0.win 5).blk t).view.emb (ix2 p q) = (ix2 r q : S80000x256.Idx) := by
  obtain ⟨-, -, -, -, -, -, -, -, -, e50, e51⟩ := idx_facts t
  funext a
  apply Fin.ext
  match a with
  | ⟨0, _⟩ => show win0_5.index t 0 * 5000 + 1 * p.val = r.val; rw [e50, hr]; omega
  | ⟨1, _⟩ => show win0_5.index t 1 * 256 + 1 * q.val = q.val; rw [e51]; omega

/-- Point `t` writes back, into the first output, block `t` of the rows of `x` times the second weight array. -/
theorem flushed4_eq (c : Dev nD) (t : Fin cfg0.N) :
    (dat0 V c).flushed 4 t = ((cfg0.win 4).blk t).view.read (Elt Ideal) (rowsTimes (V c main_v0) (V c main_v2)) := by
  show (cfg0.win 4).cut (grid0.coords t) ((dat0 V c).after 4 t) = _
  rw [after0_4]
  unfold out0_4
  rw [View.canon_unit_zero hz2]
  simp only [View.ld_unit_zero (S := S5000x256) hz2, View.ld_unit_zero (S := S256x256) hz2]
  funext j
  obtain ⟨p, q, rfl⟩ : ∃ (p : Fin 5000) (q : Fin 256), j = ix2 p q := ⟨j 0, j 1, eq_ix2 j⟩
  have hr : 5000 * t.val + p.val < 80000 := by have := tlt t; have := p.isLt; omega
  show k0_pay2 (iblk0 V c 0 t) (iblk0 V c 2 t) (ix2 p q)
    = rowsTimes (V c main_v0) (V c main_v2) (((cfg0.win 4).blk t).view.emb (ix2 p q))
  rw [out4_emb t p q ⟨5000 * t.val + p.val, hr⟩ rfl]
  refine (pay2_apply _ _ p q).trans ?_
  show _ = ∑ k : Fin 256, _
  refine Finset.sum_congr rfl fun k _ => ?_
  rw [xblk_apply V c t p k ⟨5000 * t.val + p.val, hr⟩ rfl, w2blk_apply V c t k q]

/-- Point `t` writes back, into the second output, block `t` of the rows of `x` times the first weight array plus the bias. -/
theorem flushed5_eq (c : Dev nD) (t : Fin cfg0.N) :
    (dat0 V c).flushed 5 t
      = ((cfg0.win 5).blk t).view.read (Elt Ideal) (rowsTimesPlus (V c main_v0) (V c main_v1) (V c main_arg6)) := by
  show (cfg0.win 5).cut (grid0.coords t) ((dat0 V c).after 5 t) = _
  rw [after0_5]
  unfold out0_5
  rw [View.canon_unit_zero hz2]
  simp only [View.ld_unit_zero (S := S5000x256) hz2, View.ld_unit_zero (S := S256x256) hz2, View.ld_unit_zero (S := S256) hz1]
  funext j
  obtain ⟨p, q, rfl⟩ : ∃ (p : Fin 5000) (q : Fin 256), j = ix2 p q := ⟨j 0, j 1, eq_ix2 j⟩
  have hr : 5000 * t.val + p.val < 80000 := by have := tlt t; have := p.isLt; omega
  show k0_pay3 (iblk0 V c 0 t) (iblk0 V c 1 t) (iblk0 V c 3 t) (ix2 p q)
    = rowsTimesPlus (V c main_v0) (V c main_v1) (V c main_arg6) (((cfg0.win 5).blk t).view.emb (ix2 p q))
  rw [out5_emb t p q ⟨5000 * t.val + p.val, hr⟩ rfl]
  refine (pay3_apply _ _ _ p q).trans ?_
  show _ = (∑ k : Fin 256, _) + _
  rw [bblk_apply V c t q]
  refine congrArg₂ (· + ·) (Finset.sum_congr rfl fun k _ => ?_) rfl
  rw [xblk_apply V c t p k ⟨5000 * t.val + p.val, hr⟩ rfl, w1blk_apply V c t k q]

/-- An index of an output array lies in point `t`'s block iff each coordinate lies in the block's range on its axis. -/
theorem mem_blk4 (t : Fin cfg0.N) (i : S80000x256.Idx) :
    i ∈ ((cfg0.win 4).blk t).view.set ↔ ∀ a : Fin 2, win0_4.index t a * S5000x256.size a ≤ (i a).val ∧ (i a).val < win0_4.index t a * S5000x256.size a + S5000x256.size a := by
  show i ∈ ((View.whole main_v3_0).slice (win0_4.rect t)).set ↔ _
  rw [View.set_slice_whole, Rect.mem_set_unit]
  exact Iff.rfl

theorem mem_blk5 (t : Fin cfg0.N) (i : S80000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v3_1).slice (win0_5.rect t)).set ↔ _
  rw [View.set_slice_whole, Rect.mem_set_unit]
  exact Iff.rfl

/-- The point whose block holds row `r`: `r / 5000`. -/
def ptOf (i : S80000x256.Idx) : Fin cfg0.N :=
  ⟨(i 0).val / 5000, by have h : (i 0).val < 80000 := (i 0).isLt; have hN : cfg0.N = 16 := N_0; omega⟩

/-- Every index of the first output lies in some written-back block. -/
theorem cover4 (i : S80000x256.Idx) : ∃ t : Fin cfg0.N, (cfg0.win 4).flush t = true ∧ i ∈ ((cfg0.win 4).blk t).view.set := by
  have hi0 : (i 0).val < 80000 := (i 0).isLt
  have hi1 : (i 1).val < 256 := (i 1).isLt
  refine ⟨ptOf i, flush0_4 _, ?_⟩
  rw [mem_blk4]
  obtain ⟨-, -, -, -, -, -, -, e40, e41, -⟩ := idx_facts (ptOf i)
  have hv : (ptOf i).val = (i 0).val / 5000 := rfl
  intro a
  match a with
  | ⟨0, _⟩ => show win0_4.index (ptOf i) 0 * 5000 ≤ (i 0).val ∧ (i 0).val < win0_4.index (ptOf i) 0 * 5000 + 5000; rw [e40, hv]; omega
  | ⟨1, _⟩ => show win0_4.index (ptOf i) 1 * 256 ≤ (i 1).val ∧ (i 1).val < win0_4.index (ptOf i) 1 * 256 + 256; rw [e41]; omega

/-- Every index of the second output lies in some written-back block. -/
theorem cover5 (i : S80000x256.Idx) : ∃ t : Fin cfg0.N, (cfg0.win 5).flush t = true ∧ i ∈ ((cfg0.win 5).blk t).view.set := by
  have hi0 : (i 0).val < 80000 := (i 0).isLt
  have hi1 : (i 1).val < 256 := (i 1).isLt
  refine ⟨ptOf i, flush0_5 _, ?_⟩
  rw [mem_blk5]
  obtain ⟨-, -, -, -, -, -, -, -, -, e50, e51⟩ := idx_facts (ptOf i)
  have hv : (ptOf i).val = (i 0).val / 5000 := rfl
  intro a
  match a with
  | ⟨0, _⟩ => show win0_5.index (ptOf i) 0 * 5000 ≤ (i 0).val ∧ (i 0).val < win0_5.index (ptOf i) 0 * 5000 + 5000; rw [e50, hv]; omega
  | ⟨1, _⟩ => show win0_5.index (ptOf i) 1 * 256 ≤ (i 1).val ∧ (i 1).val < win0_5.index (ptOf i) 1 * 256 + 256; rw [e51]; omega

/-- After the region the first output holds the rows of `x` times the second weight array. -/
theorem final4 (c : Dev nD) : (dat0 V c).arrAt 4 cfg0.N = rowsTimes (V c main_v0) (V c main_v2) :=
  (dat0 V c).arrAt_eq_of_cover 4 _ (fun t _ => flushed4_eq V c t) cover4

/-- After the region the second output holds the rows of `x` times the first weight array, plus the bias row. -/
theorem final5 (c : Dev nD) : (dat0 V c).arrAt 5 cfg0.N = rowsTimesPlus (V c main_v0) (V c main_v1) (V c main_arg6) :=
  (dat0 V c).arrAt_eq_of_cover 5 _ (fun t _ => flushed5_eq V c t) cover5

end Region

end Cert.KernelIdeal.Proj

end
-- ==== Proof.CombineValue.lean ====
/-
  The second kernel region, read as values. Its grid has 16 points; point `t` stages rows `5000 t … 5000 t + 4999` of two
  `80000 × 256` arrays and writes back the same rows of their entrywise sum. Each written block is the restriction of ONE
  function of the whole arrays, the entrywise sum, and the sixteen blocks tile the rows, so the output array ends at the
  entrywise sum of the two input arrays.
-/
import proofs.«110017_j86466281603623_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Combine

open Cert.KernelIdeal Cert.KernelIdeal.Gen

theorem hz2 : (![0, 0] : Fin 2 → Nat) = fun _ => 0 := funext fun a => by fin_cases a <;> rfl

/-- The body's stored value is the entrywise sum of its two loaded blocks. -/
theorem pay1_eq (x0 x1 : Vec Ideal S5000x256 .f32) : k1_pay1 (F := Ideal) x0 x1 = addf x0 x1 := by
  unfold k1_pay1
  simp only [shapeCast_self]

section Region
variable (V : (c : Dev nD) → (b : Ref sig .tc) → Buf (Elt Ideal) ((c : Thread nD τ).loc b))

/-- The printed index maps over the grid: all three windows sit at block row `t`. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Point `t` writes back block `t` of the entrywise sum of the two input arrays. -/
theorem flushed2_eq (c : Dev nD) (t : Fin cfg1.N) :
    (dat1 V c).flushed 2 t
      = ((cfg1.win 2).blk t).view.read (Elt Ideal) (addf (F := Ideal) (s := S80000x256) (φ := .f32) (V c main_v19) (V c main_v3_1)) := by
  show (cfg1.win 2).cut (grid1.coords t) ((dat1 V c).after 2 t) = _
  rw [after1_2]
  unfold out1_2
  rw [View.canon_unit_zero hz2]
  simp only [View.ld_unit_zero (S := S5000x256) hz2]
  rw [pay1_eq]
  obtain ⟨e00, e01, e10, e11, e20, e21⟩ := idx_facts t
  funext j
  show FloatOps.addf (F := Ideal) (φ := .f32) (V c main_v19 (((cfg1.win 0).blk t).view.emb j)) (V c main_v3_1 (((cfg1.win 1).blk t).view.emb j))
    = FloatOps.addf (F := Ideal) (φ := .f32) (V c main_v19 (((cfg1.win 2).blk t).view.emb j)) (V c main_v3_1 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; rw [e00, e20]
    | ⟨1, _⟩ => show win1_0.index t (1 : Fin 2) * 256 + 1 * (j 1).val = win1_2.index t (1 : Fin 2) * 256 + 1 * (j 1).val; rw [e01, e21]
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; rw [e10, e20]
    | ⟨1, _⟩ => show win1_1.index t (1 : Fin 2) * 256 + 1 * (j 1).val = win1_2.index t (1 : Fin 2) * 256 + 1 * (j 1).val; rw [e11, e21]
  rw [h0, h1]

/-- An index of the output array lies in point `t`'s block iff each coordinate lies in the block's range on its axis. -/
theorem mem_blk2 (t : Fin cfg1.N) (i : S80000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v20).slice (win1_2.rect t)).set ↔ _
  rw [View.set_slice_whole, Rect.mem_set_unit]
  exact Iff.rfl

/-- The point whose block holds row `r`: `r / 5000`. -/
def ptOf (i : S80000x256.Idx) : Fin cfg1.N :=
  ⟨(i 0).val / 5000, by have h : (i 0).val < 80000 := (i 0).isLt; have hN : cfg1.N = 16 := N_1; omega⟩

/-- Every index of the output lies in some written-back block. -/
theorem cover2 (i : S80000x256.Idx) : ∃ t : Fin cfg1.N, (cfg1.win 2).flush t = true ∧ i ∈ ((cfg1.win 2).blk t).view.set := by
  have hi0 : (i 0).val < 80000 := (i 0).isLt
  have hi1 : (i 1).val < 256 := (i 1).isLt
  refine ⟨ptOf i, flush1_2 _, ?_⟩
  rw [mem_blk2]
  obtain ⟨-, -, -, -, e20, e21⟩ := idx_facts (ptOf i)
  have hv : (ptOf i).val = (i 0).val / 5000 := rfl
  intro a
  match a with
  | ⟨0, _⟩ => show win1_2.index (ptOf i) 0 * 5000 ≤ (i 0).val ∧ (i 0).val < win1_2.index (ptOf i) 0 * 5000 + 5000; rw [e20, hv]; omega
  | ⟨1, _⟩ => show win1_2.index (ptOf i) 1 * 256 ≤ (i 1).val ∧ (i 1).val < win1_2.index (ptOf i) 1 * 256 + 256; rw [e21]; omega

/-- After the region the output holds the entrywise sum of the two input arrays as the region found them. -/
theorem final2 (c : Dev nD) :
    (dat1 V c).arrAt 2 cfg1.N = addf (F := Ideal) (s := S80000x256) (φ := .f32) (V c main_v19) (V c main_v3_1) :=
  (dat1 V c).arrAt_eq_of_cover 2 _ (fun t _ => flushed2_eq V c t) cover2

end Region

end Cert.KernelIdeal.Combine

end
-- ==== Proof.HostFold.lean ====
/-
  The buffer contents at the boundaries between the host stretches and the two kernel regions, read one stretch at a time.
  Before the first region the host reshapes the `4 × 20000 × 256` input to `80000 × 256` and changes the format of the
  two weight arrays. Between the regions it reshapes the first region's first output back to `4 × 20000 × 256`, gathers
  its rows at the column indices (a negative index counted from the end), scales each gathered row by its edge value,
  and adds the scaled rows into a zero array at the row indices; that chain is named once, `agg`, as a function of the
  array it gathers from, and is never opened. After the second region the host reshapes its output back to
  `4 × 20000 × 256`. No stretch and no region writes an index or edge-value argument, so those are read as launched.
-/
import proofs.«110017_j86466281603623_1_alg».proof.Proof.Gen.KernelIdeal.Frame
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen

/-- The sparse aggregation as a function of the array `s` it gathers from: row `n` of the result is the sum, over the
    edges `e` whose row index is `n`, of `vals e` times row `cols e` of `s` (every batch and column alike). -/
def agg (s : (⟨S4x20000x256, .f32⟩ : BufTy).Contents (Elt Ideal)) (rows cols : (⟨S160000, .i32⟩ : BufTy).Contents (Elt Ideal))
    (vals : (⟨S160000, .f32⟩ : BufTy).Contents (Elt Ideal)) : (⟨S4x20000x256, .f32⟩ : BufTy).Contents (Elt Ideal) :=
  Host.scatterAdd scatter_S4x20000x256_S160000x1_S4x160000x256_02_1_1_1
    (broadcastInDim S4x20000x256 ![1, 2] bcast_S20000x256_S4x20000x256_1_2
      (broadcastInDim S20000x256 ![] bcast_S_S20000x256 (constant (F := Ideal) S_ .f32 0x00000000#32)))
    (broadcastInDim S160000x1 ![0] bcast_S160000_S160000x1_0 rows)
    (mulf
      (Host.gather gather_S4x20000x256_S160000x1_S4x160000x256_02_1_n_n_1_1_41256 s
        (broadcastInDim S160000x1 ![0] bcast_S160000_S160000x1_0
          (select (cmpi .slt cols (broadcastInDim S160000 ![] bcast_S_S160000 (constantI S_ 32 0#32)))
            (addi cols (broadcastInDim S160000 ![] bcast_S_S160000 (constantI S_ 32 20000#32))) cols)))
      (broadcastInDim S4x160000x256 ![0, 1, 2] bcast_S1x160000x1_S4x160000x256_0_1_2
        (broadcastInDim S1x160000x1 ![1] bcast_S160000_S1x160000x1_1 vals)))

variable (m : (ℓ : Loc nD τ sig) → Buf (Elt Ideal) ℓ) (ρ : Dev nD → PrngReg)

/-! ## The first region's entry contents -/

theorem V1_v0 (c : Dev nD) :
    V1 m ρ c main_v0 = shapeCast S80000x256 (m ((c : Thread nD τ).loc main_arg0)) shapeCasts_S4x20000x256_S80000x256 := by
  show StableHlo.after hostOps0 (W0 m ρ c) (Proc.devRef .tc main_v0) = _
  after_results <;> rfl

theorem V1_v1 (c : Dev nD) :
    V1 m ρ c main_v1 = truncf (F := Ideal) (s := S256x256) (φ := .f32) .bf16 (m ((c : Thread nD τ).loc main_arg4)) bitsLt_bf16_f32 := by
  show StableHlo.after hostOps0 (W0 m ρ c) (Proc.devRef .tc main_v1) = _
  after_results <;> rfl

theorem V1_v2 (c : Dev nD) :
    V1 m ρ c main_v2 = truncf (F := Ideal) (s := S256x256) (φ := .f32) .bf16 (m ((c : Thread nD τ).loc main_arg5)) bitsLt_bf16_f32 := by
  show StableHlo.after hostOps0 (W0 m ρ c) (Proc.devRef .tc main_v2) = _
  after_results <;> rfl

theorem V1_arg6 (c : Dev nD) : V1 m ρ c main_arg6 = m ((c : Thread nD τ).loc main_arg6) := by
  show StableHlo.after hostOps0 (W0 m ρ c) (Proc.devRef .tc main_arg6) = _
  after_results <;> rfl

/-! ## The first region's exit contents: the index and edge-value arguments as launched -/

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results <;> rfl)

theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results <;> rfl)

theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

/-- The first region's two outputs at its exit are what its write-backs leave. -/
theorem W2_v3_0 (c : Dev nD) : W2 m ρ c (Proc.devRef .tc main_v3_0) = (dat0 (V1 m ρ) c).arrAt 4 cfg0.N := W2_arr m ρ c 4
theorem W2_v3_1 (c : Dev nD) : W2 m ρ c (Proc.devRef .tc main_v3_1) = (dat0 (V1 m ρ) c).arrAt 5 cfg0.N := W2_arr m ρ c 5

/-! ## The second region's entry contents -/

/-- Its first operand: the aggregation of the first region's first output, reshaped to `80000 × 256`. -/
theorem V3_v19 (c : Dev nD) :
    V3 m ρ c main_v19
      = shapeCast S80000x256
          (agg (shapeCast S4x20000x256 (W2 m ρ c (Proc.devRef .tc main_v3_0)) shapeCasts_S80000x256_S4x20000x256)
            (W2 m ρ c (Proc.devRef .tc main_arg1)) (W2 m ρ c (Proc.devRef .tc main_arg2)) (W2 m ρ c (Proc.devRef .tc main_arg3)))
          shapeCasts_S4x20000x256_S80000x256 := by
  show StableHlo.after hostOps1 (W2 m ρ c) (Proc.devRef .tc main_v19) = _
  after_results <;> rfl

/-- Its second operand: the first region's second output, untouched by the stretch between. -/
theorem V3_v3_1 (c : Dev nD) : V3 m ρ c main_v3_1 = W2 m ρ c (Proc.devRef .tc main_v3_1) := by
  show StableHlo.after hostOps1 (W2 m ρ c) (Proc.devRef .tc main_v3_1) = _
  after_results <;> rfl

/-! ## The result -/

theorem W4_v20 (c : Dev nD) : W4 m ρ c (Proc.devRef .tc main_v20) = (dat1 (V3 m ρ) c).arrAt 2 cfg1.N := W4_arr m ρ c 2

theorem W5_v21 (c : Dev nD) :
    W5 m ρ c (Proc.devRef .tc main_v21)
      = shapeCast S4x20000x256 (W4 m ρ c (Proc.devRef .tc main_v20)) shapeCasts_S80000x256_S4x20000x256 := by
  show StableHlo.after hostOps2 (W4 m ρ c) (Proc.devRef .tc main_v21) = _
  after_results <;> rfl

end Cert.KernelIdeal.Fold

end
-- ==== Proof.KernelValue.lean ====
/-
  The kernel program's run with its result named. The result array after the run is the last boundary's contents; read
  back through the last host stretch, the second region, the stretch between, the first region and the first stretch it
  is ONE function of the argument arrays: with `X` the input reshaped to `80000 × 256`, the first region leaves
  `S = X · w₂` and `D = X · w₁ + bias`; the host aggregates `S` (reshaped to `4 × 20000 × 256`) along the edges; the
  second region adds the aggregate (reshaped to `80000 × 256`) and `D` entrywise; the sum is reshaped back.
-/
import proofs.«110017_j86466281603623_1_alg».proof.Proof.KernelRun
import proofs.«110017_j86466281603623_1_alg».proof.Proof.ProjValue
import proofs.«110017_j86466281603623_1_alg».proof.Proof.CombineValue
import proofs.«110017_j86466281603623_1_alg».proof.Proof.HostFold

set_option maxRecDepth 16384

noncomputable section

open Idealize.ShloMosaic Idealize.ShloMosaic.TcCoe Idealize.SL.Sem

namespace Cert.KernelIdeal.Whole

open Cert.KernelIdeal Cert.KernelIdeal.Gen

/-- The kernel program's result as a function of its seven arguments. -/
def result (x : (⟨S4x20000x256, .f32⟩ : BufTy).Contents (Elt Ideal)) (rows cols : (⟨S160000, .i32⟩ : BufTy).Contents (Elt Ideal))
    (vals : (⟨S160000, .f32⟩ : BufTy).Contents (Elt Ideal)) (w1 w2 : (⟨S256x256, .f32⟩ : BufTy).Contents (Elt Ideal))
    (b : (⟨S256, .f32⟩ : BufTy).Contents (Elt Ideal)) : (⟨S4x20000x256, .f32⟩ : BufTy).Contents (Elt Ideal) :=
  shapeCast S4x20000x256
    (addf (F := Ideal) (s := S80000x256) (φ := .f32)
      (shapeCast S80000x256
        (Fold.agg
          (shapeCast S4x20000x256
            (Proj.rowsTimes (shapeCast S80000x256 x shapeCasts_S4x20000x256_S80000x256) (truncf .bf16 w2 bitsLt_bf16_f32))
            shapeCasts_S80000x256_S4x20000x256)
          rows cols vals)
        shapeCasts_S4x20000x256_S80000x256)
      (Proj.rowsTimesPlus (shapeCast S80000x256 x shapeCasts_S4x20000x256_S80000x256) (truncf .bf16 w1 bitsLt_bf16_f32) b))
    shapeCasts_S80000x256_S4x20000x256

variable (m : (ℓ : Loc nD τ sig) → Buf (Elt Ideal) ℓ) (ρ : Dev nD → PrngReg)

/-- The last boundary's contents at the result reference are `result` of the arguments as launched. -/
theorem W5_eq (c : Dev nD) :
    W5 m ρ c (Proc.devRef .tc main_v21)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [Fold.W5_v21 m ρ c, Fold.W4_v20 m ρ c, Combine.final2 (V3 m ρ) c, Fold.V3_v19 m ρ c, Fold.V3_v3_1 m ρ c,
    Fold.W2_v3_0 m ρ c, Fold.W2_v3_1 m ρ c, Proj.final4 (V1 m ρ) c, Proj.final5 (V1 m ρ) c,
    Fold.V1_v0 m ρ c, Fold.V1_v1 m ρ c, Fold.V1_v2 m ρ c, Fold.V1_arg6 m ρ c,
    Fold.W2_arg1 m ρ c, Fold.W2_arg2 m ρ c, Fold.W2_arg3 m ρ c]
  rfl

/-- Every weakly fair execution of the kernel program terminates without a fault, the result array at `result` of the
    arguments and the arguments unchanged. -/
theorem run : θ_run defs (onTc (τ := τ) (main (F := Ideal))) ⟨m, fun _ => 0, ρ⟩ (fun r => ∀ c : Dev nD,
      r.2.mem ((c.tc : Thread nD τ).loc main_v21)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (W5_eq m ρ c), (h c).2⟩) (Run.run_W5 m ρ)

end Cert.KernelIdeal.Whole

end
-- ==== Proof.Bridge.lean ====
/-
  The two programs compute one function. On the extended reals the reference's result at `(β, n, o)` is
  `(agg S (β, n, o) + ∑ k, x β n k · w₁ k o) + bias o` with `S = x · w₂` (a sum over the contracted coordinate `k`), and
  the kernel program's is `agg S' (β, n, o) + (∑ k, x β n k · w₁ k o + bias o)`, where `S'` is the first region's first
  output read back through two reshapes: entry `(β, n, o)` of the `4 × 20000 × 256` layout is entry `(20000 β + n, o)` of
  the `80000 × 256` one, so `S' = S` entry by entry, a change of float format being the identity. The aggregation is the
  same chain of host operations on both sides and is never opened. What is left is the associativity of addition, which
  holds on all extended reals: no finiteness is used.
-/
import proofs.«110017_j86466281603623_1_alg».proof.Proof.KernelValue
import proofs.«110017_j86466281603623_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx

namespace Cert.Bridge

open Cert.ReferenceIdeal Cert.ReferenceIdeal.Read

/-- The `4 × 20000 × 256` and the `80000 × 256` layouts of one array. -/
abbrev A3 : Shape := ⟨3, ![4, 20000, 256]⟩
abbrev A2 : Shape := ⟨2, ![80000, 256]⟩
abbrev Wt : Shape := ⟨2, ![256, 256]⟩
abbrev Bs : Shape := ⟨1, ![256]⟩
abbrev Ed : Shape := ⟨1, ![160000]⟩

/-- Reshaped to two axes, entry `(20000 β + n, o)` is entry `(β, n, o)`. -/
theorem cast_down {α : Type} (y : A3.Idx → α) (h : A3.ShapeCasts A2) (β : Fin 4) (n : Fin 20000) (o : Fin 256) (r : Fin 80000)
    (hr : r.val = β.val * 20000 + n.val) : shapeCast A2 y h (ix2 r o) = y (ix3 β n o) :=
  shapeCast_apply y h _ _ (by
    rw [Shape.rowMajor_val_three, Shape.rowMajor_val_two]
    show (β.val * 20000 + n.val) * 256 + o.val = r.val * 256 + o.val
    rw [hr])

/-- Reshaped to three axes, entry `(β, n, o)` is entry `(20000 β + n, o)`. -/
theorem cast_up {α : Type} (z : A2.Idx → α) (h : A2.ShapeCasts A3) (β : Fin 4) (n : Fin 20000) (o : Fin 256) (r : Fin 80000)
    (hr : r.val = β.val * 20000 + n.val) : shapeCast A3 z h (ix3 β n o) = z (ix2 r o) :=
  shapeCast_apply z h _ _ (by
    rw [Shape.rowMajor_val_two, Shape.rowMajor_val_three]
    show r.val * 256 + o.val = (β.val * 20000 + n.val) * 256 + o.val
    rw [hr])

/-- One term of a product's sum: the reshaped input at `(20000 β + n, k)` times the reformatted weight at `(k, o)` is the
    input at `(β, n, k)` times the weight at `(k, o)`. -/
theorem term_eq (h48 : A3.ShapeCasts A2) (hb : FTy.bits .bf16 < FTy.bits .f32) (x : FVec Ideal A3 .f32) (w : FVec Ideal Wt .f32)
    (β : Fin 4) (n : Fin 20000) (o k : Fin 256) (r : Fin 80000) (hr : r.val = β.val * 20000 + n.val) :
    shapeCast A2 x h48 (ix2 r k) * (truncf .bf16 w hb : FVec Ideal Wt .bf16) (ix2 k o) = x (ix3 β n k) * w (ix2 k o) :=
  congrArg₂ (· * ·) (cast_down x h48 β n k r hr) rfl

/-- The first region's first output, read in the three-axis layout, is the reference's first product. -/
theorem support_eq (h48 : A3.ShapeCasts A2) (h84 : A2.ShapeCasts A3) (hb : FTy.bits .bf16 < FTy.bits .f32)
    (x : FVec Ideal A3 .f32) (w2 : FVec Ideal Wt .f32) :
    shapeCast A3 (Cert.KernelIdeal.Proj.rowsTimes (shapeCast A2 x h48) (truncf .bf16 w2 hb)) h84 = val_main_v0 (F := Ideal) x w2 := by
  funext j
  obtain ⟨β, n, o, rfl⟩ : ∃ (β : Fin 4) (n : Fin 20000) (o : Fin 256), j = ix3 β n o := ⟨j 0, j 1, j 2, eq_ix3 j⟩
  have hr : β.val * 20000 + n.val < 80000 := by have := β.isLt; have := n.isLt; omega
  rw [val_main_v0_apply]
  refine (cast_up _ h84 β n o ⟨_, hr⟩ rfl).trans ?_
  show ∑ k : Fin 256, _ = _
  refine Finset.sum_congr rfl fun k _ => ?_
  refine (term_eq h48 hb x w2 β n o k ⟨_, hr⟩ rfl).trans (congrArg₂ (· * ·) (congrArg x ?_) (congrArg w2 ?_))
  · funext a; match a with | ⟨0, _⟩ => rfl | ⟨1, _⟩ => rfl | ⟨2, _⟩ => rfl
  · funext a; match a with | ⟨0, _⟩ => rfl | ⟨1, _⟩ => rfl

/-- The aggregated part of the kernel program's result at `(20000 β + n, o)`. -/
theorem aggPart (h48 h48' : A3.ShapeCasts A2) (h84 : A2.ShapeCasts A3) (hb : FTy.bits .bf16 < FTy.bits .f32)
    (x : FVec Ideal A3 .f32) (rows cols : IVec Ed 32) (vals : FVec Ideal Ed .f32) (w2 : FVec Ideal Wt .f32)
    (β : Fin 4) (n : Fin 20000) (o : Fin 256) (r : Fin 80000) (hr : r.val = β.val * 20000 + n.val) :
    shapeCast A2
        (Cert.KernelIdeal.Fold.agg
          (shapeCast A3 (Cert.KernelIdeal.Proj.rowsTimes (shapeCast A2 x h48) (truncf .bf16 w2 hb)) h84) rows cols vals)
        h48' (ix2 r o)
      = Cert.KernelIdeal.Fold.agg (val_main_v0 (F := Ideal) x w2) rows cols vals (ix3 β n o) := by
  refine (cast_down _ h48' β n o r hr).trans ?_
  rw [support_eq h48 h84 hb x w2]

/-- The dense part of the kernel program's result at `(20000 β + n, o)`: the reference's second product plus the bias. -/
theorem densePart (h48 : A3.ShapeCasts A2) (hb : FTy.bits .bf16 < FTy.bits .f32)
    (x : FVec Ideal A3 .f32) (w1 : FVec Ideal Wt .f32) (b : FVec Ideal Bs .f32)
    (β : Fin 4) (n : Fin 20000) (o : Fin 256) (r : Fin 80000) (hr : r.val = β.val * 20000 + n.val) :
    Cert.KernelIdeal.Proj.rowsTimesPlus (shapeCast A2 x h48) (truncf .bf16 w1 hb) b (ix2 r o)
      = val_main_v15 (F := Ideal) x w1 (ix3 β n o) + val_main_v18 (F := Ideal) b (ix3 β n o) := by
  rw [val_main_v15_apply, val_main_v18_apply, val_main_v17_apply]
  show (∑ k : Fin 256, _) + _ = _
  refine congrArg₂ (· + ·) (Finset.sum_congr rfl fun k _ => ?_) (congrArg b ?_)
  · refine (term_eq h48 hb x w1 β n o k r hr).trans (congrArg₂ (· * ·) (congrArg x ?_) (congrArg w1 ?_))
    · funext a; match a with | ⟨0, _⟩ => rfl | ⟨1, _⟩ => rfl | ⟨2, _⟩ => rfl
    · funext a; match a with | ⟨0, _⟩ => rfl | ⟨1, _⟩ => rfl
  · funext a; match a with | ⟨0, _⟩ => rfl

/-- The reference's aggregation is the chain the kernel program's host stretch applies, at the reference's first product. -/
theorem agg_eq (x : FVec Ideal A3 .f32) (rows cols : IVec Ed 32) (vals : FVec Ideal Ed .f32) (w2 : FVec Ideal Wt .f32) :
    val_main_v14 (F := Ideal) x rows cols vals w2 = Cert.KernelIdeal.Fold.agg (val_main_v0 (F := Ideal) x w2) rows cols vals := rfl

/-- The reference's result is the kernel program's result, as functions of the seven arguments. -/
theorem result_eq (x : FVec Ideal A3 .f32) (rows cols : IVec Ed 32) (vals : FVec Ideal Ed .f32) (w1 w2 : FVec Ideal Wt .f32)
    (b : FVec Ideal Bs .f32) :
    val_main_v19 (F := Ideal) x rows cols vals w1 w2 b = Cert.KernelIdeal.Whole.result x rows cols vals w1 w2 b := by
  funext i
  obtain ⟨β, n, o, rfl⟩ : ∃ (β : Fin 4) (n : Fin 20000) (o : Fin 256), i = ix3 β n o := ⟨i 0, i 1, i 2, eq_ix3 i⟩
  have hr : β.val * 20000 + n.val < 80000 := by have := β.isLt; have := n.isLt; omega
  rw [val_main_v19_apply, val_main_v16_apply, agg_eq]
  unfold Cert.KernelIdeal.Whole.result
  refine Eq.trans ?_ (cast_up _ _ β n o ⟨_, hr⟩ rfl).symm
  refine Eq.trans ?_ (congrArg₂ (· + ·) (aggPart _ _ _ _ x rows cols vals w2 β n o ⟨_, hr⟩ rfl).symm
    (densePart _ _ x w1 b β n o ⟨_, hr⟩ rfl).symm)
  exact add_assoc _ _ _

end Cert.Bridge

end
-- ==== Proof.lean ====
/-
  The kernel program against its reference, over the extended reals.

  Both compute, for an input `x` of shape `4 × 20000 × 256`, weights `w₁`, `w₂` of shape `256 × 256`, a bias row and a
  sparse adjacency given as 160000 edges (row index, column index, value),
      out = agg (x · w₂) + x · w₁ + bias,
  where `agg s` adds, into row `n`, `vals e` times row `cols e` of `s` for every edge `e` with row index `n`. The kernel
  program computes `x · w₂` and `x · w₁ + bias` in one pipelined region over sixteen row blocks of the input flattened to
  `80000 × 256`, aggregates on the host, and adds the aggregate and `x · w₁ + bias` in a second pipelined region; the
  reference computes both products whole, aggregates with the same host operations, and adds the bias last. On the
  extended reals a change of float format is the identity and a matrix product is the plain sum over the contracted
  coordinate, so the two results differ only in how the three summands are bracketed, and addition is associative on
  every extended real: the precondition that the inputs are finite is never opened.

  The frames of the two kernel programs are the generated ones; the reference's is its generated run with the result
  dropped. The rewrite ledger is empty, so there is nothing to preserve.
-/
import proofs.«110017_j86466281603623_1_alg».proof.Defs
import proofs.«110017_j86466281603623_1_alg».proof.Proof.Gen.Kernel
import proofs.«110017_j86466281603623_1_alg».proof.Proof.Gen.Kernel.Frame
import proofs.«110017_j86466281603623_1_alg».proof.Proof.Gen.KernelIdeal
import proofs.«110017_j86466281603623_1_alg».proof.Proof.Gen.KernelIdeal.Frame
import proofs.«110017_j86466281603623_1_alg».proof.Proof.Gen.ReferenceIdeal
import proofs.«110017_j86466281603623_1_alg».proof.Proof.Gen.ReferenceIdeal.Run
import proofs.«110017_j86466281603623_1_alg».proof.Proof.Gen.ReferenceIdeal.Read
import proofs.«110017_j86466281603623_1_alg».proof.Proof.Gen.Pre_finite_inputs
import proofs.«110017_j86466281603623_1_alg».proof.Proof.KernelValue
import proofs.«110017_j86466281603623_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Run from memories that agree on the arguments, the kernel program ends with its result array at `result` of the
    arguments and the reference with its own at the composed term of its host operations: one function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v19_eq]
  exact Cert.Bridge.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
